-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S256x256 .f32) (main_arg3 : FVec F S256x256 .f32) (main_arg4 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩
abbrev S1000x10000 : Shape := ⟨2, ![1000, 10000]⟩
abbrev S1000x256 : Shape := ⟨2, ![1000, 256]⟩

abbrev nBuf : Space → Nat
  | .hbm => 10
  | .vmem => 20
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S10000x256, .bf16⟩
  | .hbm, ⟨6, _⟩ => ⟨S10000x256, .bf16⟩
  | .hbm, ⟨7, _⟩ => ⟨S10000x10000, .bf16⟩
  | .hbm, ⟨8, _⟩ => ⟨S10000x256, .bf16⟩
  | .hbm, ⟨9, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x256, .f32⟩
  | .local _ .vmem, ⟨4, _⟩ => ⟨S400x256, .bf16⟩
  | .local _ .vmem, ⟨5, _⟩ => ⟨S400x256, .bf16⟩
  | .local _ .vmem, ⟨6, _⟩ => ⟨S400x10000, .bf16⟩
  | .local _ .vmem, ⟨7, _⟩ => ⟨S400x10000, .bf16⟩
  | .local _ .vmem, ⟨8, _⟩ => ⟨S1000x10000, .bf16⟩
  | .local _ .vmem, ⟨9, _⟩ => ⟨S1000x10000, .bf16⟩
  | .local _ .vmem, ⟨10, _⟩ => ⟨S10000x256, .bf16⟩
  | .local _ .vmem, ⟨11, _⟩ => ⟨S256x256, .f32⟩
  | .local _ .vmem, ⟨12, _⟩ => ⟨S1000x256, .bf16⟩
  | .local _ .vmem, ⟨13, _⟩ => ⟨S1000x256, .bf16⟩
  | .local _ .vmem, ⟨14, _⟩ => ⟨S1000x10000, .bf16⟩
  | .local _ .vmem, ⟨15, _⟩ => ⟨S1000x10000, .bf16⟩
  | .local _ .vmem, ⟨16, _⟩ => ⟨S10000x256, .bf16⟩
  | .local _ .vmem, ⟨17, _⟩ => ⟨S256x256, .f32⟩
  | .local _ .vmem, ⟨18, _⟩ => ⟨S1000x256, .f32⟩
  | .local _ .vmem, ⟨19, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S1000x10000_S10000x256_S1000x256_1_0_0_1_n_n_wf : DotDims.WF S1000x10000 S10000x256 S1000x256 [1] [0] [0] [1] [] []
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .bf16 = 32 ∨ (Rect.block (s := S10000x256) S400x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .bf16 = 32 ∨ (Rect.block (s := S10000x10000) S400x10000.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .bf16 = 32 ∨ (Rect.block (s := S10000x256) S1000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S10000x256.size a
  hwx2_3 : ∀ i : grid2.Coords, EltTy.bits .f32 = 32 ∨ (Rect.block (s := S10000x256) S1000x256.size (cc2_transform_3 i) (hinb2_3 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S400x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S400x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S10000x256, .f32⟩
  | .hbm, ⟨6, _⟩ => ⟨S10000x256, .f32⟩
  | .hbm, ⟨7, _⟩ => ⟨S_, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Spec.lean ====
/-
  One graph-convolution layer over the extended reals, in the two arrangements the two programs use, and the
  three-layer composition. With A the 10000×10000 adjacency, H a 10000×256 feature matrix and W a 256×256 weight
  matrix, one arrangement multiplies the adjacency in first and the weights second,
      max(Σ_k (Σ_j A[p,j]·H[j,k]) · W[k,q], 0),
  and the other the weights first and the adjacency second,
      max(Σ_j A[p,j] · (Σ_k H[j,k]·W[k,q]), 0).
  On the extended reals the two are not equal in general (moving a factor across a sum fails at the infinities), but
  when every entry of A, H and W is a real number both are the coercion of ONE real number: the double sum
  Σ_k Σ_j A[p,j]·H[j,k]·W[k,q], by distributivity and the exchange of the two finite sums in ℝ. A layer of real
  entries has real entries again, so the equality passes through the three layers.
-/
import Idealize.ShloMosaic.PureOps.Ideal
import Idealize.ShloMosaic.Lib.ValueIdx

noncomputable section

open scoped BigOperators

namespace Cert.Gcn

open Idealize.ShloMosaic Idealize.ShloMosaic.ValueIdx

/-- The adjacency's shape, the features' shape and the weights' shape. -/
abbrev SNN : Shape := ⟨2, ![10000, 10000]⟩
abbrev SND : Shape := ⟨2, ![10000, 256]⟩
abbrev SDD : Shape := ⟨2, ![256, 256]⟩

/-- Every entry of the array is a real number (neither infinity). -/
def AllReal {S : Shape} (f : S.Idx → EReal) : Prop := ∀ i, ∃ r : ℝ, f i = (r : EReal)

/-- An array of real entries is the coercion of a real array. -/
theorem AllReal.exists_coe {S : Shape} {f : S.Idx → EReal} (hf : AllReal f) :
    ∃ g : S.Idx → ℝ, f = fun i => (g i : EReal) :=
  ⟨fun i => (hf i).choose, funext fun i => (hf i).choose_spec⟩

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a real maximum with zero is the maximum with zero of the coercion. -/
theorem coe_max_zero (x : ℝ) : ((max x 0 : ℝ) : EReal) = max (x : EReal) 0 := by
  rcases le_total x 0 with h | h
  · rw [max_eq_right h, max_eq_right (by exact_mod_cast h)]; rfl
  · rw [max_eq_left h, max_eq_left (by exact_mod_cast h)]

/-- Entry (p, q) of a layer, adjacency first: max(Σ_k (Σ_j A[p,j]·H[j,k])·W[k,q], 0). -/
def cellK (a : SNN.Idx → EReal) (h : SND.Idx → EReal) (w : SDD.Idx → EReal) (p : Fin 10000) (q : Fin 256) : EReal :=
  max (∑ k : Fin 256, (∑ j : Fin 10000, a (ix2 p j) * h (ix2 j k)) * w (ix2 k q)) 0

/-- Entry (p, q) of a layer, weights first: max(Σ_j A[p,j]·(Σ_k H[j,k]·W[k,q]), 0). -/
def cellR (a : SNN.Idx → EReal) (h : SND.Idx → EReal) (w : SDD.Idx → EReal) (p : Fin 10000) (q : Fin 256) : EReal :=
  max (∑ j : Fin 10000, a (ix2 p j) * (∑ k : Fin 256, h (ix2 j k) * w (ix2 k q))) 0

/-- The same entry over the reals: the double sum, then the maximum with zero. -/
def cellReal (a : SNN.Idx → ℝ) (h : SND.Idx → ℝ) (w : SDD.Idx → ℝ) (p : Fin 10000) (q : Fin 256) : ℝ :=
  max (∑ k : Fin 256, (∑ j : Fin 10000, a (ix2 p j) * h (ix2 j k)) * w (ix2 k q)) 0

/-- A layer as an array, adjacency first. -/
def layerK (a : SNN.Idx → EReal) (h : SND.Idx → EReal) (w : SDD.Idx → EReal) : SND.Idx → EReal :=
  fun i => cellK a h w ⟨(i 0).val, idx2_lt0 i⟩ ⟨(i 1).val, idx2_lt1 i⟩

/-- A layer as an array, weights first. -/
def layerR (a : SNN.Idx → EReal) (h : SND.Idx → EReal) (w : SDD.Idx → EReal) : SND.Idx → EReal :=
  fun i => cellR a h w ⟨(i 0).val, idx2_lt0 i⟩ ⟨(i 1).val, idx2_lt1 i⟩

theorem layerK_ix2 (a : SNN.Idx → EReal) (h : SND.Idx → EReal) (w : SDD.Idx → EReal) (p : Fin 10000) (q : Fin 256) :
    layerK a h w (ix2 p q) = cellK a h w p q := rfl

theorem layerR_ix2 (a : SNN.Idx → EReal) (h : SND.Idx → EReal) (w : SDD.Idx → EReal) (p : Fin 10000) (q : Fin 256) :
    layerR a h w (ix2 p q) = cellR a h w p q := rfl

/-- On real entries the adjacency-first entry is the coercion of the real entry. -/
theorem cellK_coe (a : SNN.Idx → ℝ) (h : SND.Idx → ℝ) (w : SDD.Idx → ℝ) (p : Fin 10000) (q : Fin 256) :
    cellK (fun i => (a i : EReal)) (fun i => (h i : EReal)) (fun i => (w i : EReal)) p q = ((cellReal a h w p q : ℝ) : EReal) := by
  unfold cellK cellReal
  rw [coe_max_zero]
  simp only [coe_sum, EReal.coe_mul]

/-- On real entries the weights-first entry is the coercion of the same real entry: in ℝ the factor A[p,j] moves
    into the inner sum, the factor W[k,q] likewise, and the two finite sums exchange. -/
theorem cellR_coe (a : SNN.Idx → ℝ) (h : SND.Idx → ℝ) (w : SDD.Idx → ℝ) (p : Fin 10000) (q : Fin 256) :
    cellR (fun i => (a i : EReal)) (fun i => (h i : EReal)) (fun i => (w i : EReal)) p q = ((cellReal a h w p q : ℝ) : EReal) := by
  have hreal : (∑ k : Fin 256, (∑ j : Fin 10000, a (ix2 p j) * h (ix2 j k)) * w (ix2 k q))
      = ∑ j : Fin 10000, a (ix2 p j) * (∑ k : Fin 256, h (ix2 j k) * w (ix2 k q)) := by
    simp only [Finset.sum_mul, Finset.mul_sum]
    rw [Finset.sum_comm]
    exact Finset.sum_congr rfl fun j _ => Finset.sum_congr rfl fun k _ => mul_assoc _ _ _
  unfold cellR cellReal
  rw [hreal, coe_max_zero]
  simp only [coe_sum, EReal.coe_mul]

/-- A layer of real entries, in either arrangement, is one array. -/
theorem layerK_eq_layerR {a : SNN.Idx → EReal} {h : SND.Idx → EReal} {w : SDD.Idx → EReal}
    (ha : AllReal a) (hh : AllReal h) (hw : AllReal w) : layerK a h w = layerR a h w := by
  obtain ⟨a', rfl⟩ := ha.exists_coe
  obtain ⟨h', rfl⟩ := hh.exists_coe
  obtain ⟨w', rfl⟩ := hw.exists_coe
  funext i
  show cellK _ _ _ _ _ = cellR _ _ _ _ _
  rw [cellK_coe, cellR_coe]

/-- A layer of real entries has real entries. -/
theorem allReal_layerK {a : SNN.Idx → EReal} {h : SND.Idx → EReal} {w : SDD.Idx → EReal}
    (ha : AllReal a) (hh : AllReal h) (hw : AllReal w) : AllReal (layerK a h w) := by
  obtain ⟨a', rfl⟩ := ha.exists_coe
  obtain ⟨h', rfl⟩ := hh.exists_coe
  obtain ⟨w', rfl⟩ := hw.exists_coe
  exact fun i => ⟨_, cellK_coe a' h' w' _ _⟩

/-- The three layers, adjacency first in each. -/
def gcnK (x : SND.Idx → EReal) (a : SNN.Idx → EReal) (w0 w1 w2 : SDD.Idx → EReal) : SND.Idx → EReal :=
  layerK a (layerK a (layerK a x w0) w1) w2

/-- The three layers, weights first in each. -/
def gcnR (x : SND.Idx → EReal) (a : SNN.Idx → EReal) (w0 w1 w2 : SDD.Idx → EReal) : SND.Idx → EReal :=
  layerR a (layerR a (layerR a x w0) w1) w2

/-- On real inputs the two three-layer compositions are one array. -/
theorem gcnK_eq_gcnR {x : SND.Idx → EReal} {a : SNN.Idx → EReal} {w0 w1 w2 : SDD.Idx → EReal}
    (hx : AllReal x) (ha : AllReal a) (hw0 : AllReal w0) (hw1 : AllReal w1) (hw2 : AllReal w2) :
    gcnK x a w0 w1 w2 = gcnR x a w0 w1 w2 := by
  have h1 : AllReal (layerK a x w0) := allReal_layerK ha hx hw0
  have h2 : AllReal (layerK a (layerK a x w0) w1) := allReal_layerK ha h1 hw1
  unfold gcnK gcnR
  rw [layerK_eq_layerR ha h2 hw2, layerK_eq_layerR ha h1 hw1, layerK_eq_layerR ha hx hw0]

end Cert.Gcn

end
-- ==== Proof.Finite.lean ====
/-
  From the printed precondition to real entries. The precondition ands together, for each of the five input arrays,
  the conjunction over ALL entries of the test |v| < +∞, where |v| is max(v, −v) and +∞ is what the pattern 0x7F800000
  denotes (exponent all ones, fraction zero, sign clear). If the whole conjunction is 1, each of the five all-entry
  conjunctions is 1, so each entry passes its test. An extended real v with max(v, −v) < ⊤ is neither ⊤ (then v itself
  is ⊤) nor ⊥ (then −v is ⊤), so it is the coercion of a real number.
-/
import proofs.«124422_g61392262529321_cont_sun_c4_774_13_alg».proof.Pre_finite_inputs
import proofs.«124422_g61392262529321_cont_sun_c4_774_13_alg».proof.Proof.Spec
import Idealize.ShloMosaic.Lib.ReduceAll

noncomputable section

namespace Cert.Pre_finite_inputs.Finite

open Idealize.ShloMosaic

/-- The pattern 0x7F800000 denotes +∞. -/
theorem ofBits_inf : Ideal.ofBits .f32 0x7F800000#32 = ⊤ := by simp [Ideal.ofBits, Ideal.ieee]

/-- An extended real whose absolute value max(v, −v) tests below +∞ is a real number. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

/-- The result shape of a reduction over all axes has one index. -/
instance : Subsingleton S_.Idx := ⟨fun a b => funext fun d => d.elim0⟩

/-- One array: if the conjunction over all entries of |v| < +∞ is 1, every entry is a real number. -/
theorem allReal_of_all {S : Shape} {axes : List (Fin S.rank)} (arr : FVec Ideal S .f32)
    (hb : S_.BroadcastsInDim S (![] : Fin 0 → Fin S.rank)) (hr : S.ReducesTo axes S_) (hn : 0 < S_.numel)
    (e : Host.reduce IntOp.andi (cmpf .olt (Host.absf arr) (broadcastInDim S ![] hb (constant S_ .f32 0x7F800000#32)))
      (constantI S_ 1 1#1) hr hn ValueIdx.ix0 = 1#1) : Cert.Gcn.AllReal arr := by
  intro i
  exact real_of_abs_lt_inf (arr i) (Host.reduce_andi_all _ _ hr hn ValueIdx.ix0 e i)

/-- The precondition gives real entries in each of the five input arrays. -/
theorem allReal_of_pre [Cert.Pre_finite_inputs.Facts] (x : FVec Ideal Cert.Pre_finite_inputs.S10000x256 .f32) (a : FVec Ideal Cert.Pre_finite_inputs.S10000x10000 .f32) (w0 w1 w2 : FVec Ideal Cert.Pre_finite_inputs.S256x256 .f32)
    (h : Cert.Pre_finite_inputs.fn (F := Ideal) x a w0 w1 w2 = fun _ => 1#1) :
    Cert.Gcn.AllReal x ∧ Cert.Gcn.AllReal a ∧ Cert.Gcn.AllReal w0 ∧ Cert.Gcn.AllReal w1 ∧ Cert.Gcn.AllReal w2 := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hx, ha⟩ := IntOp.andi_eq_one.1 h01
  exact ⟨allReal_of_all x _ _ _ hx, allReal_of_all a _ _ _ ha, allReal_of_all w0 _ _ _ h2,
    allReal_of_all w1 _ _ _ h3, allReal_of_all w2 _ _ _ h4⟩

end Cert.Pre_finite_inputs.Finite

end
-- ==== Proof.RefValue.lean ====
import proofs.«124422_g61392262529321_cont_sun_c4_774_13_alg».proof.Proof.Gen.ReferenceIdeal.Read
import proofs.«124422_g61392262529321_cont_sun_c4_774_13_alg».proof.Proof.Spec

/-
  The reference's result is the three-layer composition with the weights multiplied in first.

  One layer of the reference, with A the 10000×10000 adjacency, H a 10000×256 feature matrix and W a 256×256 weight
  matrix, is the entrywise maximum with zero of the product A·(H·W). The inner product has the entry
  (H·W)[j,q] = Σ_k H[j,k]·W[k,q] and the outer one the entry (A·(H·W))[p,q] = Σ_j A[p,j]·(H·W)[j,q], so the layer read at
  the index (p,q) is
      max(Σ_j A[p,j] · (Σ_k H[j,k]·W[k,q]), 0),
  which is the weights-first entry of the layer. The index at which each factor is read is determined by its two
  coordinates: the left factor of the outer product at (p,j), the factors of the inner one at (j,k) and (k,q).

  The three layers of the reference are this one layer applied three times, each to the result of the one before, with
  the same adjacency and the three weight matrices in turn; the zero against which each maximum is taken is the same
  constant array in all three.
-/

noncomputable section

open scoped BigOperators

namespace Cert.ReferenceIdeal.RefValue

open Cert.ReferenceIdeal Cert.ReferenceIdeal.Read Idealize.ShloMosaic Idealize.ShloMosaic.ValueIdx

/-- One layer of the reference is the weights-first layer: at the index (p,q) both are
    max(Σ_j A[p,j]·(Σ_k H[j,k]·W[k,q]), 0). -/
theorem layer_eq (h : (⟨S10000x256, .f32⟩ : BufTy).Contents (Elt Ideal)) (a : (⟨S10000x10000, .f32⟩ : BufTy).Contents (Elt Ideal))
    (w : (⟨S256x256, .f32⟩ : BufTy).Contents (Elt Ideal)) :
    val_main_v2 (F := Ideal) h a w = Cert.Gcn.layerR a h w := by
  funext i
  -- the adjacency is read at (p, j), p the first coordinate of i
  have el1 : ∀ j : Fin 10000, lidx_main_v1 i j = ix2 (⟨(i 0).val, idx2_lt0 i⟩ : Fin 10000) j := fun j =>
    funext fun d => Fin.ext (by match d with | ⟨0, _⟩ => rfl | ⟨1, _⟩ => rfl)
  -- inside the inner product, at its index (j, q), the features are read at (j, k) …
  have el0 : ∀ (j : Fin 10000) (k : Fin 256), lidx_main_v0 (ridx_main_v1 i j) k = ix2 j k := fun j k =>
    funext fun d => Fin.ext (by match d with | ⟨0, _⟩ => rfl | ⟨1, _⟩ => rfl)
  -- … and the weights at (k, q), q the second coordinate of i
  have er0 : ∀ (j : Fin 10000) (k : Fin 256),
      ridx_main_v0 (ridx_main_v1 i j) k = ix2 k (⟨(i 1).val, idx2_lt1 i⟩ : Fin 256) := fun j k =>
    funext fun d => Fin.ext (by match d with | ⟨0, _⟩ => rfl | ⟨1, _⟩ => rfl)
  -- the maximum with the zero constant, over the outer sum
  rw [val_main_v2_apply, val_main_v1_apply, val_main_call0_v0_apply, val_main_call0_cst_apply,
    Ideal.maximumf_def, Ideal.ofBits_def, Ideal.ofBits_zero_f32]
  show _ = Cert.Gcn.cellR a h w ⟨(i 0).val, idx2_lt0 i⟩ ⟨(i 1).val, idx2_lt1 i⟩
  unfold Cert.Gcn.cellR
  -- term by term in j: the adjacency entry times the inner sum
  refine congrArg (fun t : EReal => max t 0) (Finset.sum_congr rfl fun j _ => ?_)
  rw [val_main_v0_apply, el1 j]
  -- term by term in k: the feature entry times the weight entry
  refine congrArg (fun t : EReal => a (ix2 (⟨(i 0).val, idx2_lt0 i⟩ : Fin 10000) j) * t) (Finset.sum_congr rfl fun k _ => ?_)
  rw [el0 j k, er0 j k]

/-- The reference's result is the three weights-first layers: the second and third layers are the first layer's
    expression applied to the previous layer's result, and each layer is the weights-first layer. -/
theorem result_eq (x : (⟨Cert.ReferenceIdeal.S10000x256, .f32⟩ : BufTy).Contents (Elt Ideal)) (a : (⟨Cert.ReferenceIdeal.S10000x10000, .f32⟩ : BufTy).Contents (Elt Ideal)) (w0 w1 w2 : (⟨Cert.ReferenceIdeal.S256x256, .f32⟩ : BufTy).Contents (Elt Ideal)) :
    Cert.ReferenceIdeal.Read.val_main_v8 (F := Ideal) x a w0 w1 w2 = Cert.Gcn.gcnR x a w0 w1 w2 := by
  -- the second layer is the one-layer expression at the first layer's result, the third at the second's
  have h5 : val_main_v5 (F := Ideal) x a w0 w1 = val_main_v2 (F := Ideal) (val_main_v2 (F := Ideal) x a w0) a w1 := rfl
  have h8 : val_main_v8 (F := Ideal) x a w0 w1 w2 = val_main_v2 (F := Ideal) (val_main_v5 (F := Ideal) x a w0 w1) a w2 := rfl
  rw [h8, h5, layer_eq, layer_eq, layer_eq]
  rfl

end Cert.ReferenceIdeal.RefValue

end
-- ==== Proof.LibLayerBody.lean ====
/-
  The body of one graph-convolution layer on a block of rows, read at one entry, at the ideal values (floats are
  extended reals, every operation exact). For a block A of M rows of the adjacency (M × K), the features H (K × D)
  and the weights W (D × D): a matrix product accumulated into a zero splat is the plain sum over the contracted
  coordinate, so the product (A·H)·W followed by the maximum with a zero splat is, at the entry (p, q),
      max(Σ_k (Σ_j A[p,j]·H[j,k]) · W[k,q], 0).
  Stated for the plain dimension numbers (rows × contraction times contraction × columns) at any sizes and any float
  formats of the two operands of the first product: a change of format is the identity at the ideal values.
-/
import Idealize.ShloMosaic.PureOps.Ideal.Laws
import Idealize.ShloMosaic.Lib.ValueIdx
import Idealize.ShloMosaic.Lib.KernelVsHost
import Idealize.ShloMosaic.Lib.StackMember

noncomputable section

open scoped BigOperators

namespace Cert.LayerBody

open Idealize.ShloMosaic Idealize.ShloMosaic.ValueIdx

/-- A kernel's plain matrix product into a zero splat, read at the entry (a, b): the sum over the contracted
    coordinate of the products of the entries (the kernel's product is the host's, which is that sum). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The layer's body at the entry (p, q): the two products and the maximum with the zero splat. -/
theorem relu_matmul_matmul_apply {M K D : Nat} {φa φh : FTy}
    (a : FVec Ideal ⟨2, ![M, K]⟩ φa) (h : FVec Ideal ⟨2, ![K, D]⟩ φh) (w : FVec Ideal ⟨2, ![D, D]⟩ .f32) (p : Fin M) (q : Fin D) :
    maximumf (matmul (DotDims.plain M D D) none
        (matmul (DotDims.plain M K D) none a h (constant ⟨2, ![M, D]⟩ .f32 0x00000000#32)) w
        (constant ⟨2, ![M, D]⟩ .f32 0x00000000#32))
      (broadcast ⟨2, ![M, D]⟩ (Scalar.ofBits (F := Ideal) .f32 0x00000000#32)) (ix2 p q)
      = max (∑ k : Fin D, (∑ j : Fin K, a (ix2 p j) * h (ix2 j k)) * w (ix2 k q)) 0 := by
  rw [maximumf_apply, broadcast_apply, matmul_plain_zero_apply]
  have hz : (Scalar.ofBits (F := Ideal) .f32 0x00000000#32 : Ideal .f32) = 0 := Ideal.ofBits_zero_f32
  rw [hz]
  refine congrArg (fun s => max s (0 : EReal)) (Finset.sum_congr rfl fun k _ => ?_)
  rw [matmul_plain_zero_apply]

end Cert.LayerBody

end
-- ==== Proof.KLayer0.lean ====
/-
  The first layer's pallas_call (25 grid points, a block of 400 rows of the adjacency at each), read as values at the
  ideal instance from ANY contents V of the buffers at the region's entry.

  At point t the body loads rows 400t … 400t+399 of the adjacency A (all 10000 columns), the whole feature matrix H and
  the whole weight matrix W, and stores two blocks: the same 400 rows of A in the narrower float format — at the ideal
  values a change of format is the identity, so this block is A's own rows — and the 400 × 256 block
      max(Σ_k (Σ_j A[400t+p, j]·H[j,k]) · W[k,q], 0),
  the adjacency-first entry of the layer at row 400t+p. Each output block is therefore block t of ONE whole-array
  function of the entry contents (A itself, and the adjacency-first layer of A, H, W), the 25 blocks tile the 10000
  rows (row r lies in block r / 400), and so after the region the two output arrays hold those two functions.
-/
import proofs.«124422_g61392262529321_cont_sun_c4_774_13_alg».proof.Proof.Gen.KernelIdeal.Frame
import proofs.«124422_g61392262529321_cont_sun_c4_774_13_alg».proof.Proof.Spec
import proofs.«124422_g61392262529321_cont_sun_c4_774_13_alg».proof.Proof.LibLayerBody
import Idealize.ShloMosaic.Lib.Pipeline.Value
import Idealize.ShloMosaic.Lib.ValueIdx

set_option maxRecDepth 16384

noncomputable section

open scoped BigOperators

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored feature block at the entry (p, q): the two products and the maximum with zero of the loaded blocks
    (the same-shape cast is the identity, the changes of format are the identity at the ideal values). -/
theorem pay_h (x0 : Vec Ideal S400x10000 .f32) (x1 : Vec Ideal S10000x256 .bf16) (x2 : Vec Ideal S256x256 .f32)
    (p : Fin 400) (q : Fin 256) :
    k0_pay2 (F := Ideal) x0 x1 x2 (ix2 p q)
      = max (∑ k : Fin 256, (∑ j : Fin 10000, x0 (ix2 p j) * x1 (ix2 j k)) * x2 (ix2 k q)) 0 := by
  unfold k0_pay2 k0_pay1
  dsimp only
  rw [shapeCast_self]
  exact Cert.LayerBody.relu_matmul_matmul_apply (M := 400) (K := 10000) (D := 256) x0 x1 x2 p q

/-- The stored adjacency block is the loaded one: a change of format is the identity at the ideal values. -/
theorem pay_adj (x0 : Vec Ideal S400x10000 .f32) : k0_pay1 (F := Ideal) x0 = x0 := rfl

/-- The printed index maps over the grid: the adjacency's window and both outputs' windows move one block of rows
    per point and stay at column block 0; the features' and the weights' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the adjacency's block at point t is row 400t + p of the adjacency. -/
theorem blk_adj (c : Dev nD) (t : Fin cfg0.N) (p : Fin 400) (j : Fin 10000) (hp : t.val * 400 + p.val < 10000) :
    iblk0 V c 0 t (ix2 p j) = V c main_arg1 (ix2 ⟨t.val * 400 + p.val, hp⟩ j) := by
  obtain ⟨e0, e1, -⟩ := idx_facts t
  show V c main_arg1 (((cfg0.win 0).blk t).view.emb (ix2 p j)) = _
  refine congrArg (V c main_arg1) ?_
  funext a; apply Fin.ext
  match a with
  | ⟨0, _⟩ => show win0_0.index t (0 : Fin 2) * 400 + 1 * p.val = t.val * 400 + p.val; omega
  | ⟨1, _⟩ => show win0_0.index t (1 : Fin 2) * 10000 + 1 * j.val = j.val; omega

/-- The features' block is the whole feature matrix at every point. -/
theorem blk_feat (c : Dev nD) (t : Fin cfg0.N) (j : Fin 10000) (k : Fin 256) :
    iblk0 V c 1 t (ix2 j k) = V c main_v0 (ix2 j k) := by
  obtain ⟨-, -, e0, e1, -⟩ := idx_facts t
  show V c main_v0 (((cfg0.win 1).blk t).view.emb (ix2 j k)) = _
  refine congrArg (V c main_v0) ?_
  funext a; apply Fin.ext
  match a with
  | ⟨0, _⟩ => show win0_1.index t (0 : Fin 2) * 10000 + 1 * j.val = j.val; omega
  | ⟨1, _⟩ => show win0_1.index t (1 : Fin 2) * 256 + 1 * k.val = k.val; omega

/-- The weights' block is the whole weight matrix at every point. -/
theorem blk_wt (c : Dev nD) (t : Fin cfg0.N) (k : Fin 256) (q : Fin 256) :
    iblk0 V c 2 t (ix2 k q) = V c main_arg2 (ix2 k q) := by
  obtain ⟨-, -, -, -, e0, e1, -⟩ := idx_facts t
  show V c main_arg2 (((cfg0.win 2).blk t).view.emb (ix2 k q)) = _
  refine congrArg (V c main_arg2) ?_
  funext a; apply Fin.ext
  match a with
  | ⟨0, _⟩ => show win0_2.index t (0 : Fin 2) * 256 + 1 * k.val = k.val; omega
  | ⟨1, _⟩ => show win0_2.index t (1 : Fin 2) * 256 + 1 * q.val = q.val; omega

/-- The entry (p, q) of the feature output's block at point t sits at (400t + p, q) in its array. -/
theorem emb_h (t : Fin cfg0.N) (p : Fin 400) (q : Fin 256) (hp : t.val * 400 + p.val < 10000) :
    ((cfg0.win 3).blk t).view.emb (ix2 p q) = ix2 (⟨t.val * 400 + p.val, hp⟩ : Fin 10000) q := by
  obtain ⟨-, -, -, -, -, -, e0, e1, -⟩ := idx_facts t
  funext a; apply Fin.ext
  match a with
  | ⟨0, _⟩ => show win0_3.index t (0 : Fin 2) * 400 + 1 * p.val = t.val * 400 + p.val; omega
  | ⟨1, _⟩ => show win0_3.index t (1 : Fin 2) * 256 + 1 * q.val = q.val; omega

/-- What point t writes back to the feature output is block t of the adjacency-first layer of the entry contents. -/
theorem flushed_h (c : Dev nD) (t : Fin cfg0.N) :
    (dat0 V c).flushed 3 t
      = ((cfg0.win 3).blk t).view.read (Elt Ideal) (Cert.Gcn.layerK (V c main_arg1) (V c main_v0) (V c main_arg2)) := by
  show (cfg0.win 3).cut (grid0.coords t) ((dat0 V c).after 3 t) = _
  rw [after0_3]
  unfold out0_3
  rw [View.canon_unit_zero hz]
  simp only [View.ld_unit_zero (S := S400x10000) hz, View.ld_unit_zero (S := S10000x256) hz, View.ld_unit_zero (S := S256x256) hz]
  funext y
  obtain ⟨p, q, rfl⟩ : ∃ (p : Fin 400) (q : Fin 256), y = ix2 p q := ⟨y 0, y 1, eq_ix2 y⟩
  have ht : t.val < 25 := t.isLt
  have hp : t.val * 400 + p.val < 10000 := by have := p.isLt; omega
  show k0_pay2 (F := Ideal) (iblk0 V c 0 t) (iblk0 V c 1 t) (iblk0 V c 2 t) (ix2 p q)
    = Cert.Gcn.layerK (V c main_arg1) (V c main_v0) (V c main_arg2) (((cfg0.win 3).blk t).view.emb (ix2 p q))
  rw [emb_h t p q hp, Cert.Gcn.layerK_ix2]
  refine (pay_h (iblk0 V c 0 t) (iblk0 V c 1 t) (iblk0 V c 2 t) p q).trans ?_
  unfold Cert.Gcn.cellK
  refine congrArg (fun s : EReal => max s 0) (Finset.sum_congr rfl fun k _ => ?_)
  rw [blk_wt V c t k q]
  refine congrArg (fun s : EReal => s * V c main_arg2 (ix2 k q)) (Finset.sum_congr rfl fun j _ => ?_)
  rw [blk_adj V c t p j hp, blk_feat V c t j k]

/-- What point t writes back to the adjacency copy is block t of the adjacency itself. -/
theorem flushed_adj (c : Dev nD) (t : Fin cfg0.N) :
    (dat0 V c).flushed 4 t = ((cfg0.win 4).blk t).view.read (Elt Ideal) (V c main_arg1) := by
  show (cfg0.win 4).cut (grid0.coords t) ((dat0 V c).after 4 t) = _
  rw [after0_4]
  unfold out0_4
  rw [View.canon_unit_zero hz]
  simp only [View.ld_unit_zero (S := S400x10000) hz]
  rw [pay_adj]
  obtain ⟨e0, e1, -, -, -, -, -, -, e8, e9⟩ := idx_facts t
  funext y
  show V c main_arg1 (((cfg0.win 0).blk t).view.emb y) = V c main_arg1 (((cfg0.win 4).blk t).view.emb y)
  refine congrArg (V c main_arg1) ?_
  funext a; apply Fin.ext
  match a with
  | ⟨0, _⟩ => show win0_0.index t (0 : Fin 2) * 400 + 1 * (y 0).val = win0_4.index t (0 : Fin 2) * 400 + 1 * (y 0).val; omega
  | ⟨1, _⟩ => show win0_0.index t (1 : Fin 2) * 10000 + 1 * (y 1).val = win0_4.index t (1 : Fin 2) * 10000 + 1 * (y 1).val; omega

/-- An index of the feature output is in point t's block iff each coordinate is in the block's range on its axis. -/
theorem mem_blk_h (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v1_0).slice (win0_3.rect t)).set ↔ _
  rw [View.set_slice_whole, Rect.mem_set_unit]
  exact Iff.rfl

/-- The same for the adjacency copy. -/
theorem mem_blk_adj (t : Fin cfg0.N) (i : S10000x10000.Idx) :
    i ∈ ((cfg0.win 4).blk t).view.set ↔ ∀ a : Fin 2, win0_4.index t a * S400x10000.size a ≤ (i a).val ∧ (i a).val < win0_4.index t a * S400x10000.size a + S400x10000.size a := by
  show i ∈ ((View.whole main_v1_1).slice (win0_4.rect t)).set ↔ _
  rw [View.set_slice_whole, Rect.mem_set_unit]
  exact Iff.rfl

/-- Every index of the feature output is in the block of the point its row divides to: row r is in block r / 400. -/
theorem cover_h (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hlt : (i 0).val / 400 < 25 := by omega
  refine ⟨⟨(i 0).val / 400, hlt⟩, flush0_3 _, ?_⟩
  obtain ⟨-, -, -, -, -, -, e0, e1, -⟩ := idx_facts ⟨(i 0).val / 400, hlt⟩
  rw [mem_blk_h]
  intro a
  match a with
  | ⟨0, _⟩ =>
    show win0_3.index ⟨(i 0).val / 400, hlt⟩ (0 : Fin 2) * 400 ≤ (i 0).val ∧ (i 0).val < win0_3.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win0_3.index ⟨(i 0).val / 400, hlt⟩ (1 : Fin 2) * 256 ≤ (i 1).val ∧ (i 1).val < win0_3.index ⟨(i 0).val / 400, hlt⟩ (1 : Fin 2) * 256 + 256
    rw [e1]; omega

/-- The same for the adjacency copy. -/
theorem cover_adj (i : S10000x10000.Idx) :
    ∃ t : Fin cfg0.N, (cfg0.win 4).flush t = true ∧ i ∈ ((cfg0.win 4).blk t).view.set := by
  have hi0 : (i 0).val < 10000 := (i 0).isLt
  have hi1 : (i 1).val < 10000 := (i 1).isLt
  have hlt : (i 0).val / 400 < 25 := by omega
  refine ⟨⟨(i 0).val / 400, hlt⟩, flush0_4 _, ?_⟩
  obtain ⟨-, -, -, -, -, -, -, -, e0, e1⟩ := idx_facts ⟨(i 0).val / 400, hlt⟩
  rw [mem_blk_adj]
  intro a
  match a with
  | ⟨0, _⟩ =>
    show win0_4.index ⟨(i 0).val / 400, hlt⟩ (0 : Fin 2) * 400 ≤ (i 0).val ∧ (i 0).val < win0_4.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win0_4.index ⟨(i 0).val / 400, hlt⟩ (1 : Fin 2) * 10000 ≤ (i 1).val ∧ (i 1).val < win0_4.index ⟨(i 0).val / 400, hlt⟩ (1 : Fin 2) * 10000 + 10000
    rw [e1]; omega

/-- After the region the feature output holds the adjacency-first layer of the entry contents. -/
theorem arr_h (c : Dev nD) :
    (dat0 V c).arrAt 3 cfg0.N = Cert.Gcn.layerK (V c main_arg1) (V c main_v0) (V c main_arg2) :=
  (dat0 V c).arrAt_eq_of_cover 3 _ (fun t _ => flushed_h V c t) cover_h

/-- After the region the adjacency copy holds the adjacency. -/
theorem arr_adj (c : Dev nD) : (dat0 V c).arrAt 4 cfg0.N = V c main_arg1 :=
  (dat0 V c).arrAt_eq_of_cover 4 _ (fun t _ => flushed_adj V c t) cover_adj

end Cert.KernelIdeal.Layer0

end
-- ==== Proof.KLayer1.lean ====
/-
  The second layer's pallas_call (10 grid points, a block of 1000 rows of the adjacency at each), read as values at the
  ideal instance from ANY contents V of the buffers at the region's entry.

  At point t the body loads rows 1000t … 1000t+999 of the adjacency A (all 10000 columns), the whole feature matrix H
  and the whole weight matrix W, and stores the 1000 × 256 block
      max(Σ_k (Σ_j A[1000t+p, j]·H[j,k]) · W[k,q], 0),
  the adjacency-first entry of the layer at row 1000t+p (the casts of the two loaded blocks to their own shapes are the
  identity, and at the ideal values so is the final change of float format). The output block is therefore block t of
  ONE whole-array function of the entry contents, the adjacency-first layer of A, H, W; the 10 blocks tile the 10000
  rows (row r lies in block r / 1000), and so after the region the output array holds that function.
-/
import proofs.«124422_g61392262529321_cont_sun_c4_774_13_alg».proof.Proof.Gen.KernelIdeal.Frame
import proofs.«124422_g61392262529321_cont_sun_c4_774_13_alg».proof.Proof.Spec
import proofs.«124422_g61392262529321_cont_sun_c4_774_13_alg».proof.Proof.LibLayerBody
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored block at the entry (p, q): the two products and the maximum with zero of the loaded blocks (each
    same-shape cast is the identity, the change of format is the identity at the ideal values). -/
theorem pay_h (x0 : Vec Ideal S1000x10000 .bf16) (x1 : Vec Ideal S10000x256 .bf16) (x2 : Vec Ideal S256x256 .f32)
    (p : Fin 1000) (q : Fin 256) :
    k1_pay1 (F := Ideal) x0 x1 x2 (ix2 p q)
      = max (∑ k : Fin 256, (∑ j : Fin 10000, x0 (ix2 p j) * x1 (ix2 j k)) * x2 (ix2 k q)) 0 := by
  unfold k1_pay1
  rw [shapeCast_self, shapeCast_self]
  exact Cert.LayerBody.relu_matmul_matmul_apply (M := 1000) (K := 10000) (D := 256) x0 x1 x2 p q

/-- The printed index maps over the grid: the adjacency's window and the output's window move one block of rows per
    point and stay at column block 0; the features' and the weights' windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the adjacency's block at point t is row 1000t + p of the adjacency. -/
theorem blk_adj (c : Dev nD) (t : Fin cfg1.N) (p : Fin 1000) (j : Fin 10000) (hp : t.val * 1000 + p.val < 10000) :
    iblk1 V c 0 t (ix2 p j) = V c main_v1_1 (ix2 ⟨t.val * 1000 + p.val, hp⟩ j) := by
  obtain ⟨e0, e1, -⟩ := idx_facts t
  show V c main_v1_1 (((cfg1.win 0).blk t).view.emb (ix2 p j)) = _
  refine congrArg (V c main_v1_1) ?_
  funext a; apply Fin.ext
  match a with
  | ⟨0, _⟩ => show win1_0.index t (0 : Fin 2) * 1000 + 1 * p.val = t.val * 1000 + p.val; omega
  | ⟨1, _⟩ => show win1_0.index t (1 : Fin 2) * 10000 + 1 * j.val = j.val; omega

/-- The features' block is the whole feature matrix at every point. -/
theorem blk_feat (c : Dev nD) (t : Fin cfg1.N) (j : Fin 10000) (k : Fin 256) :
    iblk1 V c 1 t (ix2 j k) = V c main_v1_0 (ix2 j k) := by
  obtain ⟨-, -, e0, e1, -⟩ := idx_facts t
  show V c main_v1_0 (((cfg1.win 1).blk t).view.emb (ix2 j k)) = _
  refine congrArg (V c main_v1_0) ?_
  funext a; apply Fin.ext
  match a with
  | ⟨0, _⟩ => show win1_1.index t (0 : Fin 2) * 10000 + 1 * j.val = j.val; omega
  | ⟨1, _⟩ => show win1_1.index t (1 : Fin 2) * 256 + 1 * k.val = k.val; omega

/-- The weights' block is the whole weight matrix at every point. -/
theorem blk_wt (c : Dev nD) (t : Fin cfg1.N) (k : Fin 256) (q : Fin 256) :
    iblk1 V c 2 t (ix2 k q) = V c main_arg3 (ix2 k q) := by
  obtain ⟨-, -, -, -, e0, e1, -⟩ := idx_facts t
  show V c main_arg3 (((cfg1.win 2).blk t).view.emb (ix2 k q)) = _
  refine congrArg (V c main_arg3) ?_
  funext a; apply Fin.ext
  match a with
  | ⟨0, _⟩ => show win1_2.index t (0 : Fin 2) * 256 + 1 * k.val = k.val; omega
  | ⟨1, _⟩ => show win1_2.index t (1 : Fin 2) * 256 + 1 * q.val = q.val; omega

/-- The entry (p, q) of the output's block at point t sits at (1000t + p, q) in its array. -/
theorem emb_h (t : Fin cfg1.N) (p : Fin 1000) (q : Fin 256) (hp : t.val * 1000 + p.val < 10000) :
    ((cfg1.win 3).blk t).view.emb (ix2 p q) = ix2 (⟨t.val * 1000 + p.val, hp⟩ : Fin 10000) q := by
  obtain ⟨-, -, -, -, -, -, e0, e1⟩ := idx_facts t
  funext a; apply Fin.ext
  match a with
  | ⟨0, _⟩ => show win1_3.index t (0 : Fin 2) * 1000 + 1 * p.val = t.val * 1000 + p.val; omega
  | ⟨1, _⟩ => show win1_3.index t (1 : Fin 2) * 256 + 1 * q.val = q.val; omega

/-- What point t writes back to the output is block t of the adjacency-first layer of the entry contents. -/
theorem flushed_h (c : Dev nD) (t : Fin cfg1.N) :
    (dat1 V c).flushed 3 t
      = ((cfg1.win 3).blk t).view.read (Elt Ideal) (Cert.Gcn.layerK (V c main_v1_1) (V c main_v1_0) (V c main_arg3)) := by
  show (cfg1.win 3).cut (grid1.coords t) ((dat1 V c).after 3 t) = _
  rw [after1_3]
  unfold out1_3
  rw [View.canon_unit_zero hz]
  simp only [View.ld_unit_zero (S := S1000x10000) hz, View.ld_unit_zero (S := S10000x256) hz, View.ld_unit_zero (S := S256x256) hz]
  funext y
  obtain ⟨p, q, rfl⟩ : ∃ (p : Fin 1000) (q : Fin 256), y = ix2 p q := ⟨y 0, y 1, eq_ix2 y⟩
  have ht : t.val < 10 := t.isLt
  have hp : t.val * 1000 + p.val < 10000 := by have := p.isLt; omega
  show k1_pay1 (F := Ideal) (iblk1 V c 0 t) (iblk1 V c 1 t) (iblk1 V c 2 t) (ix2 p q)
    = Cert.Gcn.layerK (V c main_v1_1) (V c main_v1_0) (V c main_arg3) (((cfg1.win 3).blk t).view.emb (ix2 p q))
  rw [emb_h t p q hp, Cert.Gcn.layerK_ix2]
  refine (pay_h (iblk1 V c 0 t) (iblk1 V c 1 t) (iblk1 V c 2 t) p q).trans ?_
  unfold Cert.Gcn.cellK
  refine congrArg (fun s : EReal => max s 0) (Finset.sum_congr rfl fun k _ => ?_)
  rw [blk_wt V c t k q]
  refine congrArg (fun s : EReal => s * V c main_arg3 (ix2 k q)) (Finset.sum_congr rfl fun j _ => ?_)
  rw [blk_adj V c t p j hp, blk_feat V c t j k]

/-- An index of the output is in point t's block iff each coordinate is in the block's range on its axis. -/
theorem mem_blk_h (t : Fin cfg1.N) (i : S10000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v2).slice (win1_3.rect t)).set ↔ _
  rw [View.set_slice_whole, Rect.mem_set_unit]
  exact Iff.rfl

/-- Every index of the output is in the block of the point its row divides to: row r is in block r / 1000. -/
theorem cover_h (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hlt : (i 0).val / 1000 < 10 := by omega
  refine ⟨⟨(i 0).val / 1000, hlt⟩, flush1_3 _, ?_⟩
  obtain ⟨-, -, -, -, -, -, e0, e1⟩ := idx_facts ⟨(i 0).val / 1000, hlt⟩
  rw [mem_blk_h]
  intro a
  match a with
  | ⟨0, _⟩ =>
    show win1_3.index ⟨(i 0).val / 1000, hlt⟩ (0 : Fin 2) * 1000 ≤ (i 0).val ∧ (i 0).val < win1_3.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win1_3.index ⟨(i 0).val / 1000, hlt⟩ (1 : Fin 2) * 256 ≤ (i 1).val ∧ (i 1).val < win1_3.index ⟨(i 0).val / 1000, hlt⟩ (1 : Fin 2) * 256 + 256
    rw [e1]; omega

/-- After the region the output holds the adjacency-first layer of the entry contents. -/
theorem arr_h (c : Dev nD) : (dat1 V c).arrAt 3 cfg1.N = Cert.Gcn.layerK (V c main_v1_1) (V c main_v1_0) (V c main_arg3) :=
  (dat1 V c).arrAt_eq_of_cover 3 _ (fun t _ => flushed_h V c t) cover_h

end Cert.KernelIdeal.Layer1

end
-- ==== Proof.KLayer2.lean ====
/-
  The third layer's pallas_call (10 grid points, a block of 1000 rows of the adjacency at each), read as values at the
  ideal instance from ANY contents V of the buffers at the region's entry.

  At point t the body loads rows 1000t … 1000t+999 of the adjacency A (all 10000 columns), the whole feature matrix H
  and the whole weight matrix W, and stores one block, the 1000 × 256 block
      max(Σ_k (Σ_j A[1000t+p, j]·H[j,k]) · W[k,q], 0),
  the adjacency-first entry of the layer at row 1000t+p; no change of format follows the maximum. The output block is
  therefore block t of ONE whole-array function of the entry contents (the adjacency-first layer of A, H, W), the 10
  blocks tile the 10000 rows (row r lies in block r / 1000), and so after the region the output array holds that
  function.
-/
import proofs.«124422_g61392262529321_cont_sun_c4_774_13_alg».proof.Proof.Gen.KernelIdeal.Frame
import proofs.«124422_g61392262529321_cont_sun_c4_774_13_alg».proof.Proof.Spec
import proofs.«124422_g61392262529321_cont_sun_c4_774_13_alg».proof.Proof.LibLayerBody
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored block at the entry (p, q): the two products and the maximum with zero of the loaded blocks (each of the
    two same-shape casts is the identity, and nothing follows the maximum). -/
theorem pay_h (x0 : Vec Ideal S1000x10000 .bf16) (x1 : Vec Ideal S10000x256 .bf16) (x2 : Vec Ideal S256x256 .f32)
    (p : Fin 1000) (q : Fin 256) :
    k2_pay1 (F := Ideal) x0 x1 x2 (ix2 p q)
      = max (∑ k : Fin 256, (∑ j : Fin 10000, x0 (ix2 p j) * x1 (ix2 j k)) * x2 (ix2 k q)) 0 := by
  unfold k2_pay1
  rw [shapeCast_self, shapeCast_self]
  exact Cert.LayerBody.relu_matmul_matmul_apply (M := 1000) (K := 10000) (D := 256) x0 x1 x2 p q

/-- The printed index maps over the grid: the adjacency's window and the output's window move one block of rows per
    point and stay at column block 0; the features' and the weights' windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the adjacency's block at point t is row 1000t + p of the adjacency. -/
theorem blk_adj (c : Dev nD) (t : Fin cfg2.N) (p : Fin 1000) (j : Fin 10000) (hp : t.val * 1000 + p.val < 10000) :
    iblk2 V c 0 t (ix2 p j) = V c main_v1_1 (ix2 ⟨t.val * 1000 + p.val, hp⟩ j) := by
  obtain ⟨e0, e1, -⟩ := idx_facts t
  show V c main_v1_1 (((cfg2.win 0).blk t).view.emb (ix2 p j)) = _
  refine congrArg (V c main_v1_1) ?_
  funext a; apply Fin.ext
  match a with
  | ⟨0, _⟩ => show win2_0.index t (0 : Fin 2) * 1000 + 1 * p.val = t.val * 1000 + p.val; omega
  | ⟨1, _⟩ => show win2_0.index t (1 : Fin 2) * 10000 + 1 * j.val = j.val; omega

/-- The features' block is the whole feature matrix at every point. -/
theorem blk_feat (c : Dev nD) (t : Fin cfg2.N) (j : Fin 10000) (k : Fin 256) :
    iblk2 V c 1 t (ix2 j k) = V c main_v2 (ix2 j k) := by
  obtain ⟨-, -, e0, e1, -⟩ := idx_facts t
  show V c main_v2 (((cfg2.win 1).blk t).view.emb (ix2 j k)) = _
  refine congrArg (V c main_v2) ?_
  funext a; apply Fin.ext
  match a with
  | ⟨0, _⟩ => show win2_1.index t (0 : Fin 2) * 10000 + 1 * j.val = j.val; omega
  | ⟨1, _⟩ => show win2_1.index t (1 : Fin 2) * 256 + 1 * k.val = k.val; omega

/-- The weights' block is the whole weight matrix at every point. -/
theorem blk_wt (c : Dev nD) (t : Fin cfg2.N) (k : Fin 256) (q : Fin 256) :
    iblk2 V c 2 t (ix2 k q) = V c main_arg4 (ix2 k q) := by
  obtain ⟨-, -, -, -, e0, e1, -⟩ := idx_facts t
  show V c main_arg4 (((cfg2.win 2).blk t).view.emb (ix2 k q)) = _
  refine congrArg (V c main_arg4) ?_
  funext a; apply Fin.ext
  match a with
  | ⟨0, _⟩ => show win2_2.index t (0 : Fin 2) * 256 + 1 * k.val = k.val; omega
  | ⟨1, _⟩ => show win2_2.index t (1 : Fin 2) * 256 + 1 * q.val = q.val; omega

/-- The entry (p, q) of the output's block at point t sits at (1000t + p, q) in its array. -/
theorem emb_h (t : Fin cfg2.N) (p : Fin 1000) (q : Fin 256) (hp : t.val * 1000 + p.val < 10000) :
    ((cfg2.win 3).blk t).view.emb (ix2 p q) = ix2 (⟨t.val * 1000 + p.val, hp⟩ : Fin 10000) q := by
  obtain ⟨-, -, -, -, -, -, e0, e1⟩ := idx_facts t
  funext a; apply Fin.ext
  match a with
  | ⟨0, _⟩ => show win2_3.index t (0 : Fin 2) * 1000 + 1 * p.val = t.val * 1000 + p.val; omega
  | ⟨1, _⟩ => show win2_3.index t (1 : Fin 2) * 256 + 1 * q.val = q.val; omega

/-- What point t writes back to the output is block t of the adjacency-first layer of the entry contents. -/
theorem flushed_h (c : Dev nD) (t : Fin cfg2.N) :
    (dat2 V c).flushed 3 t
      = ((cfg2.win 3).blk t).view.read (Elt Ideal) (Cert.Gcn.layerK (V c main_v1_1) (V c main_v2) (V c main_arg4)) := by
  show (cfg2.win 3).cut (grid2.coords t) ((dat2 V c).after 3 t) = _
  rw [after2_3]
  unfold out2_3
  rw [View.canon_unit_zero hz]
  simp only [View.ld_unit_zero (S := S1000x10000) hz, View.ld_unit_zero (S := S10000x256) hz, View.ld_unit_zero (S := S256x256) hz]
  funext y
  obtain ⟨p, q, rfl⟩ : ∃ (p : Fin 1000) (q : Fin 256), y = ix2 p q := ⟨y 0, y 1, eq_ix2 y⟩
  have ht : t.val < 10 := t.isLt
  have hp : t.val * 1000 + p.val < 10000 := by have := p.isLt; omega
  show k2_pay1 (F := Ideal) (iblk2 V c 0 t) (iblk2 V c 1 t) (iblk2 V c 2 t) (ix2 p q)
    = Cert.Gcn.layerK (V c main_v1_1) (V c main_v2) (V c main_arg4) (((cfg2.win 3).blk t).view.emb (ix2 p q))
  rw [emb_h t p q hp, Cert.Gcn.layerK_ix2]
  refine (pay_h (iblk2 V c 0 t) (iblk2 V c 1 t) (iblk2 V c 2 t) p q).trans ?_
  unfold Cert.Gcn.cellK
  refine congrArg (fun s : EReal => max s 0) (Finset.sum_congr rfl fun k _ => ?_)
  rw [blk_wt V c t k q]
  refine congrArg (fun s : EReal => s * V c main_arg4 (ix2 k q)) (Finset.sum_congr rfl fun j _ => ?_)
  rw [blk_adj V c t p j hp, blk_feat V c t j k]

/-- An index of the output is in point t's block iff each coordinate is in the block's range on its axis. -/
theorem mem_blk_h (t : Fin cfg2.N) (i : S10000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v3).slice (win2_3.rect t)).set ↔ _
  rw [View.set_slice_whole, Rect.mem_set_unit]
  exact Iff.rfl

/-- Every index of the output is in the block of the point its row divides to: row r is in block r / 1000. -/
theorem cover_h (i : S10000x256.Idx) :
    ∃ t : Fin cfg2.N, (cfg2.win 3).flush t = true ∧ i ∈ ((cfg2.win 3).blk t).view.set := by
  have hi0 : (i 0).val < 10000 := (i 0).isLt
  have hi1 : (i 1).val < 256 := (i 1).isLt
  have hlt : (i 0).val / 1000 < 10 := by omega
  refine ⟨⟨(i 0).val / 1000, hlt⟩, flush2_3 _, ?_⟩
  obtain ⟨-, -, -, -, -, -, e0, e1⟩ := idx_facts ⟨(i 0).val / 1000, hlt⟩
  rw [mem_blk_h]
  intro a
  match a with
  | ⟨0, _⟩ =>
    show win2_3.index ⟨(i 0).val / 1000, hlt⟩ (0 : Fin 2) * 1000 ≤ (i 0).val ∧ (i 0).val < win2_3.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win2_3.index ⟨(i 0).val / 1000, hlt⟩ (1 : Fin 2) * 256 ≤ (i 1).val ∧ (i 1).val < win2_3.index ⟨(i 0).val / 1000, hlt⟩ (1 : Fin 2) * 256 + 256
    rw [e1]; omega

/-- After the region the output holds the adjacency-first layer of the entry contents. -/
theorem arr_h (c : Dev nD) : (dat2 V c).arrAt 3 cfg2.N = Cert.Gcn.layerK (V c main_v1_1) (V c main_v2) (V c main_arg4) :=
  (dat2 V c).arrAt_eq_of_cover 3 _ (fun t _ => flushed_h V c t) cover_h

end Cert.KernelIdeal.Layer2

end
-- ==== Proof.KValue.lean ====
/-
  The kernel program's result as a value, at the ideal instance. The program is a host stretch (the features X narrowed
  to a smaller float format: the identity at the ideal values) and three pallas_calls. Following the buffer contents
  from boundary to boundary: after the first region the first output holds L(A, X, W0) — L the adjacency-first layer,
  A the adjacency — and the second output holds A itself (its narrowed copy); the second region reads that copy, the
  first layer's features and W1, and leaves L(A, L(A, X, W0), W1) in its output, touching nothing else; the third
  reads the copy, the second layer's features and W2, and leaves L(A, L(A, L(A, X, W0), W1), W2) in the result
  buffer. No region and no host operation writes an argument, so each argument is read at its launch contents
  wherever it is read. The run of the program then ends with the result buffer at that three-layer array of the
  launch contents, the arguments unchanged.
-/
import proofs.«124422_g61392262529321_cont_sun_c4_774_13_alg».proof.Proof.KRun
import proofs.«124422_g61392262529321_cont_sun_c4_774_13_alg».proof.Proof.KLayer0
import proofs.«124422_g61392262529321_cont_sun_c4_774_13_alg».proof.Proof.KLayer1
import proofs.«124422_g61392262529321_cont_sun_c4_774_13_alg».proof.Proof.KLayer2

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The host stretch before the first region writes only the narrowed copy of the features: every other buffer is as launched. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact StableHlo.devRef_ne_of_ne hb))).trans rfl

/-- The narrowed copy of the features is the features: a change of format is the identity at the ideal values. -/
theorem W1_feat (c : Dev nD) : W1 m ρ c (Proc.devRef .tc main_v0) = m ((c : Thread nD τ).loc main_arg0) := by
  show StableHlo.after hostOps0 (W0 m ρ c) (Proc.devRef .tc main_v0) = _
  after_results
  rfl

/-- Region 0's exit: the first layer's features. -/
theorem W2_feat (c : Dev nD) : W2 m ρ c (Proc.devRef .tc main_v1_0)
    = Cert.Gcn.layerK (m ((c : Thread nD τ).loc main_arg1)) (m ((c : Thread nD τ).loc main_arg0)) (m ((c : Thread nD τ).loc main_arg2)) := by
  refine (W2_arr m ρ c 3).trans ?_
  rw [Cert.KernelIdeal.Layer0.arr_h (V1 m ρ) c]
  show Cert.Gcn.layerK (W1 m ρ c (Proc.devRef .tc main_arg1)) (W1 m ρ c (Proc.devRef .tc main_v0)) (W1 m ρ c (Proc.devRef .tc main_arg2)) = _
  rw [W1_of_ne m ρ c main_arg1 (by decide), W1_feat m ρ c, W1_of_ne m ρ c main_arg2 (by decide)]

/-- Region 0's exit: the adjacency copy is the adjacency. -/
theorem W2_adj (c : Dev nD) : W2 m ρ c (Proc.devRef .tc main_v1_1) = m ((c : Thread nD τ).loc main_arg1) := by
  refine (W2_arr m ρ c 4).trans ?_
  rw [Cert.KernelIdeal.Layer0.arr_adj (V1 m ρ) c]
  exact W1_of_ne m ρ c main_arg1 (by decide)

/-- Region 0's exit: a buffer that is neither one of its arrays nor the narrowed features is as launched. -/
theorem W2_arg (c : Dev nD) (b : Ref sig .tc) (hb : ∀ w, Pipeline.arrRef spec0 w ≠ b) (hb' : b ≠ main_v0) :
    W2 m ρ c (Proc.devRef .tc b) = m ((c : Thread nD τ).loc b) :=
  (W2_of_ne m ρ c b hb).trans (W1_of_ne m ρ c b hb')

/-- Region 1's exit: the second layer's features. -/
theorem W3_feat (c : Dev nD) : W3 m ρ c (Proc.devRef .tc main_v2)
    = Cert.Gcn.layerK (m ((c : Thread nD τ).loc main_arg1))
        (Cert.Gcn.layerK (m ((c : Thread nD τ).loc main_arg1)) (m ((c : Thread nD τ).loc main_arg0)) (m ((c : Thread nD τ).loc main_arg2)))
        (m ((c : Thread nD τ).loc main_arg3)) := by
  refine (W3_arr m ρ c 3).trans ?_
  rw [Cert.KernelIdeal.Layer1.arr_h (V2 m ρ) c]
  show Cert.Gcn.layerK (W2 m ρ c (Proc.devRef .tc main_v1_1)) (W2 m ρ c (Proc.devRef .tc main_v1_0)) (W2 m ρ c (Proc.devRef .tc main_arg3)) = _
  rw [W2_adj m ρ c, W2_feat m ρ c, W2_arg m ρ c main_arg3 (by decide) (by decide)]

/-- Region 1's exit: it only reads the adjacency copy. -/
theorem W3_adj (c : Dev nD) : W3 m ρ c (Proc.devRef .tc main_v1_1) = m ((c : Thread nD τ).loc main_arg1) :=
  ((W3_arr m ρ c 0).trans (((dat1 (V2 m ρ) c).arrAt_in 0 rfl _).trans (A_eq1 (V2 m ρ) c 0))).trans (W2_adj m ρ c)

/-- Region 1's exit: the third weight matrix is as launched. -/
theorem W3_wt (c : Dev nD) : W3 m ρ c (Proc.devRef .tc main_arg4) = m ((c : Thread nD τ).loc main_arg4) :=
  (W3_of_ne m ρ c main_arg4 (by decide)).trans (W2_arg m ρ c main_arg4 (by decide) (by decide))

/-- Region 2's exit: the result buffer holds the three adjacency-first layers of the launch contents. -/
theorem result (c : Dev nD) : W4 m ρ c (Proc.devRef .tc main_v3)
    = Cert.Gcn.gcnK (m ((c : Thread nD τ).loc main_arg0)) (m ((c : Thread nD τ).loc main_arg1))
        (m ((c : Thread nD τ).loc main_arg2)) (m ((c : Thread nD τ).loc main_arg3)) (m ((c : Thread nD τ).loc main_arg4)) := by
  refine (W4_arr m ρ c 3).trans ?_
  rw [Cert.KernelIdeal.Layer2.arr_h (V3 m ρ) c]
  show Cert.Gcn.layerK (W3 m ρ c (Proc.devRef .tc main_v1_1)) (W3 m ρ c (Proc.devRef .tc main_v2)) (W3 m ρ c (Proc.devRef .tc main_arg4)) = _
  rw [W3_adj m ρ c, W3_feat m ρ c, W3_wt m ρ c]
  rfl

/-- The kernel program's run, read: the result is the three adjacency-first layers of the arguments, the arguments unchanged. -/
theorem run : θ_run defs (onTc (τ := τ) (main (F := Ideal))) ⟨m, fun _ => 0, ρ⟩ (fun r => ∀ c : Dev nD,
      r.2.mem ((c.tc : Thread nD τ).loc main_v3)
        = Cert.Gcn.gcnK (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩)
    (Cert.KernelIdeal.Launched.run_named (F := Ideal) m ρ)

end Cert.KernelIdeal.Result

end
-- ==== Proof.lean ====
/-
  The certificate of a three-layer graph-convolution block. The kernel computes each layer as
  max((A·H)·W, 0) on blocks of rows of the adjacency A; the reference computes max(A·(H·W), 0) on whole arrays. At the
  ideal instance both are arrays of extended reals, and the two arrangements of the double sum
  Σ_j Σ_k A[p,j]·H[j,k]·W[k,q] agree when every entry is a real number — which the precondition gives for the inputs
  and which each layer preserves (Proof/Spec.lean). The three frames are the programs' runs with the values dropped;
  the idealized kernel is the kernel's own text read at the ideal instance, so nothing is owed for it; and the value
  claim joins the kernel's result (Proof/KValue.lean, over the three regions' values Proof/KLayer0–2.lean), the
  reference's result (Proof/RefValue.lean), the real entries (Proof/Finite.lean) and the equality of the two
  three-layer compositions.
-/
import proofs.«124422_g61392262529321_cont_sun_c4_774_13_alg».proof.Defs
import proofs.«124422_g61392262529321_cont_sun_c4_774_13_alg».proof.Proof.Gen.Kernel
import proofs.«124422_g61392262529321_cont_sun_c4_774_13_alg».proof.Proof.Gen.Kernel.Skeleton
import proofs.«124422_g61392262529321_cont_sun_c4_774_13_alg».proof.Proof.Gen.Kernel.Launch
import proofs.«124422_g61392262529321_cont_sun_c4_774_13_alg».proof.Proof.Gen.Kernel.Points
import proofs.«124422_g61392262529321_cont_sun_c4_774_13_alg».proof.Proof.Gen.Kernel.Frame
import proofs.«124422_g61392262529321_cont_sun_c4_774_13_alg».proof.Proof.Gen.KernelIdeal
import proofs.«124422_g61392262529321_cont_sun_c4_774_13_alg».proof.Proof.Gen.KernelIdeal.Skeleton
import proofs.«124422_g61392262529321_cont_sun_c4_774_13_alg».proof.Proof.Gen.KernelIdeal.Launch
import proofs.«124422_g61392262529321_cont_sun_c4_774_13_alg».proof.Proof.Gen.KernelIdeal.Points
import proofs.«124422_g61392262529321_cont_sun_c4_774_13_alg».proof.Proof.Gen.KernelIdeal.Frame
import proofs.«124422_g61392262529321_cont_sun_c4_774_13_alg».proof.Proof.Gen.ReferenceIdeal
import proofs.«124422_g61392262529321_cont_sun_c4_774_13_alg».proof.Proof.Gen.ReferenceIdeal.Run
import proofs.«124422_g61392262529321_cont_sun_c4_774_13_alg».proof.Proof.Gen.ReferenceIdeal.Read
import proofs.«124422_g61392262529321_cont_sun_c4_774_13_alg».proof.Proof.Gen.Pre_finite_inputs
import proofs.«124422_g61392262529321_cont_sun_c4_774_13_alg».proof.Proof.Spec
import proofs.«124422_g61392262529321_cont_sun_c4_774_13_alg».proof.Proof.Finite
import proofs.«124422_g61392262529321_cont_sun_c4_774_13_alg».proof.Proof.RefValue
import proofs.«124422_g61392262529321_cont_sun_c4_774_13_alg».proof.Proof.KValue
import Idealize.ShloMosaic.Adequacy
import Idealize.ShloMosaic.Init

noncomputable section

namespace Cert.Proof

open Idealize.ShloMosaic Idealize.SL.Sem

/-- The kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, of real entries by the precondition, both programs end with the same
    array: the kernel's three adjacency-first layers are the reference's three weights-first layers. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq (F := Ideal) _ _ _ _ _).trans ?_
  refine (Cert.ReferenceIdeal.RefValue.result_eq _ _ _ _ _).trans ?_
  rw [(hagree c).1, (hagree c).2.1, (hagree c).2.2.1, (hagree c).2.2.2.1, (hagree c).2.2.2.2]
  obtain ⟨hx, ha, hw0, hw1, hw2⟩ := Cert.Pre_finite_inputs.Finite.allReal_of_pre _ _ _ _ _ (hpre c)
  exact (Cert.Gcn.gcnK_eq_gcnR hx ha hw0 hw1 hw2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
